-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S100000x128, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x64, .f32⟩
  | 73 => ⟨S100000, .i32⟩
  | 74 => ⟨S1x1600000, .i32⟩
  | 75 => ⟨S1600000, .i32⟩
  | 76 => ⟨S1700000, .i32⟩
  | 77 => ⟨S1x1600000, .i32⟩
  | 78 => ⟨S1600000, .i32⟩
  | 79 => ⟨S1700000, .i32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S_, .f32⟩
  | 90 => ⟨S100000, .f32⟩
  | 91 => ⟨S100000, .f32⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x64, .f32⟩
  | 125 => ⟨S1700000x1, .f32⟩
  | 126 => ⟨S1700000x64, .f32⟩
  | 127 => ⟨S1700000x64, .f32⟩
  | _ => ⟨S100000x128, .f32⟩

abbrev hbmTy0_1 (i : Nat) : BufTy := match i % 128 with
  | 0 => ⟨S_, .f32⟩
  | 1 => ⟨S100000x64, .f32⟩
  | 2 => ⟨S1700000x1, .i32⟩
  | 3 => ⟨S100000x64, .f32⟩
  | 4 => ⟨S1x64, .f32⟩
  | 5 => ⟨S100000x64, .f32⟩
  | 6 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.FirstProduct.lean ====
/-
  The first pallas_call's result array, as one function of the arrays the region is entered with.

  The call tiles the rows of a [100000, 128] array `x` into ten blocks of 10000 rows; at each block it multiplies the
  block by the whole [128, 128] array `w` into a zero accumulator and writes the [10000, 128] product back as the same
  block of rows of the result. Over the extended reals a change of float format is the identity, so entry (r, j) of
  the product at block `t` is `∑ₖ x[10000·t + r, k] · w[k, j]`: the result array is the matrix product `x · w`, entry by
  entry (`product`), whatever the contents `V` the region finds in its arrays.
-/
import proofs.«178910_j34445637714074_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Cert.KernelIdeal Cert.KernelIdeal.Gen
open Idealize.ShloMosaic Idealize.ShloMosaic.TcCoe Idealize.SL.Sem
open Idealize.ShloMosaic.Pipeline (Dat)

/-! ## The matrix product, entry by entry -/

/-- Entry (row of `i`, `k`) of the left factor. -/
abbrev leftAt (i : S100000x128.Idx) (k : Fin 128) : S100000x128.Idx := fun a => match a with
  | ⟨0, _⟩ => ⟨(i 0).val, (i 0).isLt⟩
  | ⟨1, _⟩ => ⟨k.val, k.isLt⟩
/-- Entry (`k`, column of `i`) of the right factor. -/
abbrev rightAt (i : S100000x128.Idx) (k : Fin 128) : S128x128.Idx := fun a => match a with
  | ⟨0, _⟩ => ⟨k.val, k.isLt⟩
  | ⟨1, _⟩ => ⟨(i 1).val, (i 1).isLt⟩

/-- `x · w` over the extended reals: entry (r, j) is `∑ₖ x[r, k] · w[k, j]`. -/
def product (x : (⟨S100000x128, .f32⟩ : BufTy).Contents (Elt Ideal)) (w : (⟨S128x128, .f32⟩ : BufTy).Contents (Elt Ideal)) :
    (⟨S100000x128, .f32⟩ : BufTy).Contents (Elt Ideal) :=
  fun i => ∑ k : Fin 128, x (leftAt i k) * w (rightAt i k)

/-! ## One block's product -/

/-- The same two entries inside one block of 10000 rows. -/
abbrev blockLeftAt (y : S10000x128.Idx) (k : Fin 128) : S10000x128.Idx := fun a => match a with
  | ⟨0, _⟩ => ⟨(y 0).val, (y 0).isLt⟩
  | ⟨1, _⟩ => ⟨k.val, k.isLt⟩
abbrev blockRightAt (y : S10000x128.Idx) (k : Fin 128) : S128x128.Idx := fun a => match a with
  | ⟨0, _⟩ => ⟨k.val, k.isLt⟩
  | ⟨1, _⟩ => ⟨(y 1).val, (y 1).isLt⟩

theorem lhs_axis0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_axis1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_axis0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_axis1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body stores, at an entry of the block: the sum over the contracted axis of the two loaded blocks'
    entries (the two roundings to the narrow format are the identity over the extended reals; the accumulator is zero). -/
theorem stored_apply (xb : Vec Ideal S10000x128 .f32) (wb : Vec Ideal S128x128 .f32) (y : S10000x128.Idx) :
    k0_pay1 (F := Ideal) xb wb y = ∑ k : Fin 128, xb (blockLeftAt y k) * wb (blockRightAt y k) := by
  unfold k0_pay1
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx y ((ValueIdx.contrEquiv1 dot_S10000x128_S128x128_S10000x128_1_0_0_1_n_n 128 rfl rfl).symm k) = blockLeftAt y k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx y ((ValueIdx.contrEquiv1 dot_S10000x128_S128x128_S10000x128_1_0_0_1_n_n 128 rfl rfl).symm k) = blockRightAt y k := funext fun a => Fin.ext (by
    match a with
    | ⟨0, _⟩ => exact (rhs_axis0 _ _).trans hk
    | ⟨1, _⟩ => exact rhs_axis1 _ _)
  rw [el, er]
  rfl

/-! ## From the blocks to the array -/

variable (V : (c : Dev nD) → (b : Ref sig .tc) → Buf (Elt Ideal) ((c : Thread nD τ).loc b))

/-- The two arrays the region reads, at their literal types. -/
abbrev leftArray (c : Dev nD) : (⟨S100000x128, .f32⟩ : BufTy).Contents (Elt Ideal) := V c main_arg0
abbrev rightArray (c : Dev nD) : (⟨S128x128, .f32⟩ : BufTy).Contents (Elt Ideal) := V c main_arg2

theorem origin : (![0, 0] : Fin 2 → Nat) = fun _ => 0 := funext fun a => by fin_cases a <;> rfl

/-- The index maps over the grid: at point `t` the left factor's window and the result's window are at block `t`
    of the rows, and the right factor's window is the whole array. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the matrix product of the two arrays the region is entered with. -/
theorem writtenBack (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  obtain ⟨e0, e1, e2, e3, e4, e5⟩ := blockIndex t
  funext y
  refine (stored_apply _ _ y).trans ?_
  show (∑ k : Fin 128, leftArray V c (((cfg0.win 0).blk t).view.emb (blockLeftAt y k)) * rightArray V c (((cfg0.win 1).blk t).view.emb (blockRightAt y k)))
    = ∑ k : Fin 128, leftArray V c (leftAt (((cfg0.win 2).blk t).view.emb y) k) * rightArray V c (rightAt (((cfg0.win 2).blk t).view.emb y) k)
  refine Finset.sum_congr rfl fun k _ => ?_
  have h0 : ((cfg0.win 0).blk t).view.emb (blockLeftAt y k) = leftAt (((cfg0.win 2).blk t).view.emb y) k := by
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 128 + 1 * k.val = k.val; omega
  have h1 : ((cfg0.win 1).blk t).view.emb (blockRightAt y k) = rightAt (((cfg0.win 2).blk t).view.emb y) k := by
    funext a; apply Fin.ext
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  rw [h0, h1]

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- The ten blocks of rows tile the result array: row `r` is in block `r / 10000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  have hlt : (i 0).val / 10000 < cfg0.N := by rw [hN]; omega
  obtain ⟨-, -, -, -, e4, e5⟩ := blockIndex ⟨(i 0).val / 10000, hlt⟩
  have e4' : win0_2.index ⟨(i 0).val / 10000, hlt⟩ (0 : Fin 2) = (i 0).val / 10000 := e4
  refine ⟨⟨(i 0).val / 10000, hlt⟩, flush0_2 _, ?_⟩
  rw [mem_block]
  intro a
  match a with
  | ⟨0, _⟩ => show win0_2.index ⟨(i 0).val / 10000, hlt⟩ (0 : Fin 2) * 10000 ≤ (i 0).val ∧ (i 0).val < win0_2.index ⟨(i 0).val / 10000, hlt⟩ (0 : Fin 2) * 10000 + 10000; omega
  | ⟨1, _⟩ => show win0_2.index ⟨(i 0).val / 10000, hlt⟩ (1 : Fin 2) * 128 ≤ (i 1).val ∧ (i 1).val < win0_2.index ⟨(i 0).val / 10000, hlt⟩ (1 : Fin 2) * 128 + 128; omega

/-- The result array after the region: the matrix product of the two arrays the region is entered with. -/
theorem result (c : Dev nD) : (dat0 V c).arrAt 2 cfg0.N = product (V c main_arg0) (V c main_arg2) :=
  (dat0 V c).arrAt_eq_of_cover 2 (product (V c main_arg0) (V c main_arg2)) (fun t _ => writtenBack V c t) covered

end Cert.KernelIdeal.FirstProduct

end
-- ==== Proof.SecondProduct.lean ====
/-
  The second pallas_call's result array, as one function of the arrays the region is entered with.

  The call tiles the rows of a [100000, 128] array `h` into ten blocks of 10000 rows; at each block it takes the
  entrywise maximum of the block with zero, multiplies that by the whole [128, 64] array `w` into a zero accumulator and
  writes the [10000, 64] product back as the same block of rows of the result. Over the extended reals a change of
  float format is the identity, so entry (r, j) of the product at block `t` is `∑ₖ max(h[10000·t + r, k], 0) · w[k, j]`:
  the result array is `max(h, 0) · w`, entry by entry (`product`), whatever the contents `V` the region finds in its arrays.
-/
import proofs.«178910_j34445637714074_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.SecondProduct

open Cert.KernelIdeal Cert.KernelIdeal.Gen
open Idealize.ShloMosaic Idealize.ShloMosaic.TcCoe Idealize.SL.Sem
open Idealize.ShloMosaic.Pipeline (Dat)

/-! ## The product of the positive part with the weights, entry by entry -/

/-- Entry (row of `i`, `k`) of the left factor. -/
abbrev leftAt (i : S100000x64.Idx) (k : Fin 128) : S100000x128.Idx := fun a => match a with
  | ⟨0, _⟩ => ⟨(i 0).val, (i 0).isLt⟩
  | ⟨1, _⟩ => ⟨k.val, k.isLt⟩
/-- Entry (`k`, column of `i`) of the right factor. -/
abbrev rightAt (i : S100000x64.Idx) (k : Fin 128) : S128x64.Idx := fun a => match a with
  | ⟨0, _⟩ => ⟨k.val, k.isLt⟩
  | ⟨1, _⟩ => ⟨(i 1).val, (i 1).isLt⟩

/-- `max(h, 0) · w` over the extended reals: entry (r, j) is `∑ₖ max(h[r, k], 0) · w[k, j]`. -/
def product (h : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, FloatOps.maximumf (F := Ideal) (h (leftAt i k)) (FloatOps.ofBits (F := Ideal) .f32 0x00000000#32) * w (rightAt i k)

/-! ## One block's product -/

/-- The same two entries inside one block of 10000 rows. -/
abbrev blockLeftAt (y : S10000x64.Idx) (k : Fin 128) : S10000x128.Idx := fun a => match a with
  | ⟨0, _⟩ => ⟨(y 0).val, (y 0).isLt⟩
  | ⟨1, _⟩ => ⟨k.val, k.isLt⟩
abbrev blockRightAt (y : S10000x64.Idx) (k : Fin 128) : S128x64.Idx := fun a => match a with
  | ⟨0, _⟩ => ⟨k.val, k.isLt⟩
  | ⟨1, _⟩ => ⟨(y 1).val, (y 1).isLt⟩

theorem lhs_axis0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_axis1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_axis0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_axis1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- What the body stores, at an entry of the block: the sum over the contracted axis of the positive part of the
    loaded block's entry times the loaded weights' entry (the cast of a shape to itself and the two roundings to the
    narrow format are the identity over the extended reals; the accumulator is zero). -/
theorem stored_apply (xb : Vec Ideal S10000x128 .f32) (wb : Vec Ideal S128x64 .f32) (y : S10000x64.Idx) :
    k1_pay1 (F := Ideal) xb wb y
      = ∑ k : Fin 128, FloatOps.maximumf (F := Ideal) (xb (blockLeftAt y k)) (FloatOps.ofBits (F := Ideal) .f32 0x00000000#32) * wb (blockRightAt y k) := by
  unfold k1_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx y ((ValueIdx.contrEquiv1 dot_S10000x128_S128x64_S10000x64_1_0_0_1_n_n 128 rfl rfl).symm k) = blockLeftAt y k := funext fun a => Fin.ext (by
    match a with
    | ⟨0, _⟩ => exact lhs_axis0 _ _
    | ⟨1, _⟩ => exact (lhs_axis1 _ _).trans hk)
  have er : dot_S10000x128_S128x64_S10000x64_1_0_0_1_n_n.rhsIdx y ((ValueIdx.contrEquiv1 dot_S10000x128_S128x64_S10000x64_1_0_0_1_n_n 128 rfl rfl).symm k) = blockRightAt y k := funext fun a => Fin.ext (by
    match a with
    | ⟨0, _⟩ => exact (rhs_axis0 _ _).trans hk
    | ⟨1, _⟩ => exact rhs_axis1 _ _)
  rw [el, er, shapeCast_self]
  rfl

/-! ## From the blocks to the array -/

variable (V : (c : Dev nD) → (b : Ref sig .tc) → Buf (Elt Ideal) ((c : Thread nD τ).loc b))

/-- The two arrays the region reads, at their literal types. -/
abbrev leftArray (c : Dev nD) : (⟨S100000x128, .f32⟩ : BufTy).Contents (Elt Ideal) := V c main_v48
abbrev rightArray (c : Dev nD) : (⟨S128x64, .f32⟩ : BufTy).Contents (Elt Ideal) := V c main_arg4

theorem origin : (![0, 0] : Fin 2 → Nat) = fun _ => 0 := funext fun a => by fin_cases a <;> rfl

/-- The index maps over the grid: at point `t` the left factor's window and the result's window are at block `t`
    of the rows, and the right factor's window is the whole array. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `product` of the two arrays the region is entered with. -/
theorem writtenBack (c : Dev nD) (t : Fin cfg1.N) :
    (dat1 V c).flushed 2 t = ((cfg1.win 2).blk t).view.read (Elt Ideal) (product (V c main_v48) (V c main_arg4)) := by
  show (cfg1.win 2).cut (grid1.coords t) ((dat1 V c).after 2 t) = _
  rw [after1_2]
  unfold out1_2
  rw [View.canon_unit_zero origin]
  simp only [View.ld_unit_zero (S := S10000x128) origin, View.ld_unit_zero (S := S128x64) origin]
  obtain ⟨e0, e1, e2, e3, e4, e5⟩ := blockIndex t
  funext y
  refine (stored_apply _ _ y).trans ?_
  show (∑ k : Fin 128, FloatOps.maximumf (F := Ideal) (leftArray V c (((cfg1.win 0).blk t).view.emb (blockLeftAt y k))) (FloatOps.ofBits (F := Ideal) .f32 0x00000000#32) * rightArray V c (((cfg1.win 1).blk t).view.emb (blockRightAt y k)))
    = ∑ k : Fin 128, FloatOps.maximumf (F := Ideal) (leftArray V c (leftAt (((cfg1.win 2).blk t).view.emb y) k)) (FloatOps.ofBits (F := Ideal) .f32 0x00000000#32) * rightArray V c (rightAt (((cfg1.win 2).blk t).view.emb y) k)
  refine Finset.sum_congr rfl fun k _ => ?_
  have h0 : ((cfg1.win 0).blk t).view.emb (blockLeftAt y k) = leftAt (((cfg1.win 2).blk t).view.emb y) k := by
    funext a; apply Fin.ext
    match a with
    | ⟨0, _⟩ => show win1_0.index t (0 : Fin 2) * 10000 + 1 * (y 0).val = win1_2.index t (0 : Fin 2) * 10000 + 1 * (y 0).val; omega
    | ⟨1, _⟩ => show win1_0.index t (1 : Fin 2) * 128 + 1 * k.val = k.val; omega
  have h1 : ((cfg1.win 1).blk t).view.emb (blockRightAt y k) = rightAt (((cfg1.win 2).blk t).view.emb y) k := by
    funext a; apply Fin.ext
    match a with
    | ⟨0, _⟩ => show win1_1.index t (0 : Fin 2) * 128 + 1 * k.val = k.val; omega
    | ⟨1, _⟩ => show win1_1.index t (1 : Fin 2) * 64 + 1 * (y 1).val = win1_2.index t (1 : Fin 2) * 64 + 1 * (y 1).val; omega
  rw [h0, h1]

/-- An index of the result array is in point `t`'s block iff each coordinate is in the block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- The ten blocks of rows tile the result array: row `r` is in block `r / 10000`. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have hlt : (i 0).val / 10000 < cfg1.N := by rw [hN]; omega
  obtain ⟨-, -, -, -, e4, e5⟩ := blockIndex ⟨(i 0).val / 10000, hlt⟩
  have e4' : win1_2.index ⟨(i 0).val / 10000, hlt⟩ (0 : Fin 2) = (i 0).val / 10000 := e4
  refine ⟨⟨(i 0).val / 10000, hlt⟩, flush1_2 _, ?_⟩
  rw [mem_block]
  intro a
  match a with
  | ⟨0, _⟩ => show win1_2.index ⟨(i 0).val / 10000, hlt⟩ (0 : Fin 2) * 10000 ≤ (i 0).val ∧ (i 0).val < win1_2.index ⟨(i 0).val / 10000, hlt⟩ (0 : Fin 2) * 10000 + 10000; omega
  | ⟨1, _⟩ => show win1_2.index ⟨(i 0).val / 10000, hlt⟩ (1 : Fin 2) * 64 ≤ (i 1).val ∧ (i 1).val < win1_2.index ⟨(i 0).val / 10000, hlt⟩ (1 : Fin 2) * 64 + 64; omega

/-- The result array after the region: `product` of the two arrays the region is entered with. -/
theorem result (c : Dev nD) : (dat1 V c).arrAt 2 cfg1.N = product (V c main_v48) (V c main_arg4) :=
  (dat1 V c).arrAt_eq_of_cover 2 (product (V c main_v48) (V c main_arg4)) (fun t _ => writtenBack V c t) covered

end Cert.KernelIdeal.SecondProduct

end
-- ==== Proof.StageBridge.lean ====
/-
  The kernel's two matrix products are the reference's two `dot_general` stages, and the reference's second
  computation of the edge lists and of the edge weights is its first.

  Over the extended reals the host's `dot_general` of a [100000, 128] array with a [128, n] array is, entry by entry,
  the sum over the contracted axis of the products of the two entries: the same sum the kernel's blocks add up, so
  `FirstProduct.product` is the reference's first product and `SecondProduct.product` of the first layer's output is
  its second one (the reference's `relu` is the entrywise maximum with the zero constant). The reference computes
  the source list, the destination list and the normalised edge weights once per layer, by the same operations of the
  same argument: the two computations are one term.
-/
import proofs.«178910_j34445637714074_1_alg».proof.Proof.RefReadP
import proofs.«178910_j34445637714074_1_alg».proof.Proof.FirstProduct
import proofs.«178910_j34445637714074_1_alg».proof.Proof.SecondProduct

set_option maxRecDepth 16384

noncomputable section

namespace Cert.StageBridge

open Idealize.ShloMosaic Idealize.ShloMosaic.TcCoe Idealize.SL.Sem

/-- The first product is the reference's `x @ W1`. -/
theorem firstProduct_eq (x0 : (⟨Cert.ReferenceIdeal.S100000x128, .f32⟩ : BufTy).Contents (Elt Ideal)) (x2 : (⟨Cert.ReferenceIdeal.S128x128, .f32⟩ : BufTy).Contents (Elt Ideal)) :
    Cert.KernelIdeal.FirstProduct.product x0 x2 = Cert.ReferenceIdeal.ReadP.val_main_v0 (F := Ideal) x0 x2 := by
  funext i
  rw [Cert.ReferenceIdeal.ReadP.val_main_v0_apply]
  rfl

/-- The second product, of the first layer's output, is the reference's `relu(out1) @ W2`. -/
theorem secondProduct_eq (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) :
    Cert.KernelIdeal.SecondProduct.product (Cert.ReferenceIdeal.ReadP.val_main_v48 (F := Ideal) x0 x1 x2 x3) x4 = Cert.ReferenceIdeal.ReadP.val_main_v50 (F := Ideal) x0 x1 x2 x3 x4 := by
  funext i
  rw [Cert.ReferenceIdeal.ReadP.val_main_v50_apply]
  show (∑ k : Fin 128, _) = _
  refine Finset.sum_congr rfl fun k _ => ?_
  rw [Cert.ReferenceIdeal.ReadP.val_main_v49_apply, Cert.ReferenceIdeal.ReadP.val_main_call1_v0_apply, Cert.ReferenceIdeal.ReadP.val_main_call1_cst_apply]
  rfl

variable {F : FTy → Type} [FloatOps F]

/-- The second layer's source list is the first layer's. -/
theorem source_again (x1 : (⟨Cert.ReferenceIdeal.S2x1600000, .i32⟩ : BufTy).Contents (Elt F)) :
    Cert.ReferenceIdeal.ReadP.val_main_v54 (F := F) x1 = Cert.ReferenceIdeal.ReadP.val_main_v4 (F := F) x1 := rfl
/-- The second layer's destination list is the first layer's. -/
theorem destination_again (x1 : (⟨Cert.ReferenceIdeal.S2x1600000, .i32⟩ : BufTy).Contents (Elt F)) :
    Cert.ReferenceIdeal.ReadP.val_main_v57 (F := F) x1 = Cert.ReferenceIdeal.ReadP.val_main_v7 (F := F) x1 := rfl
/-- The second layer's edge weights are the first layer's. -/
theorem weights_again (x1 : (⟨Cert.ReferenceIdeal.S2x1600000, .i32⟩ : BufTy).Contents (Elt F)) :
    Cert.ReferenceIdeal.ReadP.val_main_v82 (F := F) x1 = Cert.ReferenceIdeal.ReadP.val_main_v32 (F := F) x1 := rfl

end Cert.StageBridge

end
-- ==== Proof.Walk.lean ====
/-
  The kernel program's result array as a term of the arguments: @main walked from its last boundary back to the launch.

  @main is five stretches of host operations around two pallas_calls. The first three stretches build, from the edge
  list alone, the source list (each edge's source, then every node once), the destination list and the normalised edge
  weight `dis[src] · dis[dst]`; the first call multiplies the features by the first weights; the fourth stretch gathers
  the product's rows at the sources, scales them by the edge weights, adds them up at the destinations and adds the
  first bias; the second call multiplies the positive part of that by the second weights; the last stretch aggregates
  again and adds the second bias. No stretch and no call writes a buffer an earlier one wrote, so each value is read
  at the boundary where it is made and carried unchanged to where it is used.

  Each value is stated as the reference's stage of the same name-free meaning (the reference's stages are one
  definition per operation, so equality with a stretch's composed term is by unfolding those definitions): the source
  list, the destination list and the weights are the reference's; the first call's array is its `x @ W1`
  (`StageBridge.firstProduct_eq`), the fourth stretch's result its first layer's output, the second call's array its
  `relu(out1) @ W2` (`StageBridge.secondProduct_eq`), and the last stretch's result its result.
-/
import proofs.«178910_j34445637714074_1_alg».proof.Proof.Gen.KernelIdeal.Frame
import proofs.«178910_j34445637714074_1_alg».proof.Proof.StageBridge
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

/-! ## The edge weights, whatever the floats are

The longest host chain (the degrees, their inverse square roots where positive, gathered at both ends of every edge
and multiplied) involves no arithmetic law: it is the same operations on both sides, so it is compared at an arbitrary
float family. -/

theorem edgeWeights_anyFloats {F : FTy → Type} [FloatOps F] (m : (ℓ : Loc nD τ sig) → Buf (Elt F) ℓ) (ρ : Dev nD → PrngReg) (c : Dev nD) :
    W3 m ρ c (Proc.devRef .tc main_v31) = Cert.ReferenceIdeal.ReadP.val_main_v32 (F := F) (m ((c.tc : Thread nD τ).loc main_arg1)) := by
  show StableHlo.after hostOps0_2 (StableHlo.after hostOps0_1 (StableHlo.after hostOps0 (W0 m ρ c))) (Proc.devRef .tc main_v31) = _
  simp only [hostOps0, hostOps0_1, hostOps0_2]
  after_results_simp <;> rfl

variable (m : (ℓ : Loc nD τ sig) → Buf (Elt Ideal) ℓ) (ρ : Dev nD → PrngReg)

/-! ## The arguments, at their literal types -/

abbrev features (c : Dev nD) : (⟨S100000x128, .f32⟩ : BufTy).Contents (Elt Ideal) := m ((c.tc : Thread nD τ).loc main_arg0)
abbrev edges (c : Dev nD) : (⟨S2x1600000, .i32⟩ : BufTy).Contents (Elt Ideal) := m ((c.tc : Thread nD τ).loc main_arg1)
abbrev weights1 (c : Dev nD) : (⟨S128x128, .f32⟩ : BufTy).Contents (Elt Ideal) := m ((c.tc : Thread nD τ).loc main_arg2)
abbrev bias1 (c : Dev nD) : (⟨S128, .f32⟩ : BufTy).Contents (Elt Ideal) := m ((c.tc : Thread nD τ).loc main_arg3)
abbrev weights2 (c : Dev nD) : (⟨S128x64, .f32⟩ : BufTy).Contents (Elt Ideal) := m ((c.tc : Thread nD τ).loc main_arg4)
abbrev bias2 (c : Dev nD) : (⟨S64, .f32⟩ : BufTy).Contents (Elt Ideal) := m ((c.tc : Thread nD τ).loc main_arg5)

/-! ## At the first call's entry: after the first three stretches -/

/-- The source list. -/
theorem entry0_source (c : Dev nD) : W3 m ρ c (Proc.devRef .tc main_v3) = Cert.ReferenceIdeal.ReadP.val_main_v4 (F := Ideal) (edges m c) := by
  show StableHlo.after hostOps0_2 (StableHlo.after hostOps0_1 (StableHlo.after hostOps0 (W0 m ρ c))) (Proc.devRef .tc main_v3) = _
  simp only [hostOps0, hostOps0_1, hostOps0_2]
  after_results_simp <;> rfl
/-- The destination list. -/
theorem entry0_destination (c : Dev nD) : W3 m ρ c (Proc.devRef .tc main_v6) = Cert.ReferenceIdeal.ReadP.val_main_v7 (F := Ideal) (edges m c) := by
  show StableHlo.after hostOps0_2 (StableHlo.after hostOps0_1 (StableHlo.after hostOps0 (W0 m ρ c))) (Proc.devRef .tc main_v6) = _
  simp only [hostOps0, hostOps0_1, hostOps0_2]
  after_results_simp <;> rfl
/-- The normalised edge weights. -/
theorem entry0_edgeWeights (c : Dev nD) : W3 m ρ c (Proc.devRef .tc main_v31) = Cert.ReferenceIdeal.ReadP.val_main_v32 (F := Ideal) (edges m c) :=
  edgeWeights_anyFloats m ρ c
/-- The arguments are as launched. -/
theorem entry0_features (c : Dev nD) : W3 m ρ c (Proc.devRef .tc main_arg0) = features m c := by
  show StableHlo.after hostOps0_2 (StableHlo.after hostOps0_1 (StableHlo.after hostOps0 (W0 m ρ c))) (Proc.devRef .tc main_arg0) = _
  simp only [hostOps0, hostOps0_1, hostOps0_2]
  after_results_simp <;> rfl
theorem entry0_weights1 (c : Dev nD) : W3 m ρ c (Proc.devRef .tc main_arg2) = weights1 m c := by
  show StableHlo.after hostOps0_2 (StableHlo.after hostOps0_1 (StableHlo.after hostOps0 (W0 m ρ c))) (Proc.devRef .tc main_arg2) = _
  simp only [hostOps0, hostOps0_1, hostOps0_2]
  after_results_simp <;> rfl
theorem entry0_bias1 (c : Dev nD) : W3 m ρ c (Proc.devRef .tc main_arg3) = bias1 m c := by
  show StableHlo.after hostOps0_2 (StableHlo.after hostOps0_1 (StableHlo.after hostOps0 (W0 m ρ c))) (Proc.devRef .tc main_arg3) = _
  simp only [hostOps0, hostOps0_1, hostOps0_2]
  after_results_simp <;> rfl
theorem entry0_weights2 (c : Dev nD) : W3 m ρ c (Proc.devRef .tc main_arg4) = weights2 m c := by
  show StableHlo.after hostOps0_2 (StableHlo.after hostOps0_1 (StableHlo.after hostOps0 (W0 m ρ c))) (Proc.devRef .tc main_arg4) = _
  simp only [hostOps0, hostOps0_1, hostOps0_2]
  after_results_simp <;> rfl
theorem entry0_bias2 (c : Dev nD) : W3 m ρ c (Proc.devRef .tc main_arg5) = bias2 m c := by
  show StableHlo.after hostOps0_2 (StableHlo.after hostOps0_1 (StableHlo.after hostOps0 (W0 m ρ c))) (Proc.devRef .tc main_arg5) = _
  simp only [hostOps0, hostOps0_1, hostOps0_2]
  after_results_simp <;> rfl

/-! ## At the first call's exit -/

/-- The call's result array is the reference's `x @ W1`. -/
theorem exit0_product (c : Dev nD) :
    W4 m ρ c (Proc.devRef .tc main_v32) = Cert.ReferenceIdeal.ReadP.val_main_v0 (F := Ideal) (features m c) (weights1 m c) :=
  ((W4_arr m ρ c 2).trans (FirstProduct.result (V3 m ρ) c)).trans
    ((congrArg₂ FirstProduct.product (entry0_features m ρ c) (entry0_weights1 m ρ c)).trans (Cert.StageBridge.firstProduct_eq _ _))
/-- Everything else is as entered. -/
theorem exit0_source (c : Dev nD) : W4 m ρ c (Proc.devRef .tc main_v3) = Cert.ReferenceIdeal.ReadP.val_main_v4 (F := Ideal) (edges m c) :=
  (W4_of_ne m ρ c main_v3 (by decide)).trans (entry0_source m ρ c)
theorem exit0_destination (c : Dev nD) : W4 m ρ c (Proc.devRef .tc main_v6) = Cert.ReferenceIdeal.ReadP.val_main_v7 (F := Ideal) (edges m c) :=
  (W4_of_ne m ρ c main_v6 (by decide)).trans (entry0_destination m ρ c)
theorem exit0_edgeWeights (c : Dev nD) : W4 m ρ c (Proc.devRef .tc main_v31) = Cert.ReferenceIdeal.ReadP.val_main_v32 (F := Ideal) (edges m c) :=
  (W4_of_ne m ρ c main_v31 (by decide)).trans (entry0_edgeWeights m ρ c)
theorem exit0_bias1 (c : Dev nD) : W4 m ρ c (Proc.devRef .tc main_arg3) = bias1 m c :=
  (W4_of_ne m ρ c main_arg3 (by decide)).trans (entry0_bias1 m ρ c)
theorem exit0_weights2 (c : Dev nD) : W4 m ρ c (Proc.devRef .tc main_arg4) = weights2 m c :=
  (W4_of_ne m ρ c main_arg4 (by decide)).trans (entry0_weights2 m ρ c)
theorem exit0_bias2 (c : Dev nD) : W4 m ρ c (Proc.devRef .tc main_arg5) = bias2 m c :=
  (W4_of_ne m ρ c main_arg5 (by decide)).trans (entry0_bias2 m ρ c)

/-! ## At the second call's entry: after the fourth stretch -/

/-- The first layer's output: the product's rows gathered at the sources, scaled by the edge weights, added up at the
    destinations, plus the first bias. -/
theorem entry1_hidden (c : Dev nD) :
    W5 m ρ c (Proc.devRef .tc main_v48) = Cert.ReferenceIdeal.ReadP.val_main_v48 (F := Ideal) (features m c) (edges m c) (weights1 m c) (bias1 m c) := by
  show StableHlo.after hostOps1 (W4 m ρ c) (Proc.devRef .tc main_v48) = _
  simp only [hostOps1]
  after_results_simp
  rw [exit0_product m ρ c, exit0_source m ρ c, exit0_destination m ρ c, exit0_edgeWeights m ρ c, exit0_bias1 m ρ c]
  rfl
/-- Everything else the later items read is as the first call left it. -/
theorem entry1_source (c : Dev nD) : W5 m ρ c (Proc.devRef .tc main_v3) = Cert.ReferenceIdeal.ReadP.val_main_v4 (F := Ideal) (edges m c) := by
  show StableHlo.after hostOps1 (W4 m ρ c) (Proc.devRef .tc main_v3) = _
  simp only [hostOps1]
  after_results_simp
  exact exit0_source m ρ c
theorem entry1_destination (c : Dev nD) : W5 m ρ c (Proc.devRef .tc main_v6) = Cert.ReferenceIdeal.ReadP.val_main_v7 (F := Ideal) (edges m c) := by
  show StableHlo.after hostOps1 (W4 m ρ c) (Proc.devRef .tc main_v6) = _
  simp only [hostOps1]
  after_results_simp
  exact exit0_destination m ρ c
theorem entry1_edgeWeights (c : Dev nD) : W5 m ρ c (Proc.devRef .tc main_v31) = Cert.ReferenceIdeal.ReadP.val_main_v32 (F := Ideal) (edges m c) := by
  show StableHlo.after hostOps1 (W4 m ρ c) (Proc.devRef .tc main_v31) = _
  simp only [hostOps1]
  after_results_simp
  exact exit0_edgeWeights m ρ c
theorem entry1_weights2 (c : Dev nD) : W5 m ρ c (Proc.devRef .tc main_arg4) = weights2 m c := by
  show StableHlo.after hostOps1 (W4 m ρ c) (Proc.devRef .tc main_arg4) = _
  simp only [hostOps1]
  after_results_simp
  exact exit0_weights2 m ρ c
theorem entry1_bias2 (c : Dev nD) : W5 m ρ c (Proc.devRef .tc main_arg5) = bias2 m c := by
  show StableHlo.after hostOps1 (W4 m ρ c) (Proc.devRef .tc main_arg5) = _
  simp only [hostOps1]
  after_results_simp
  exact exit0_bias2 m ρ c

/-! ## At the second call's exit -/

/-- The call's result array is the reference's `relu(out1) @ W2`. -/
theorem exit1_product (c : Dev nD) :
    W6 m ρ c (Proc.devRef .tc main_v49) = Cert.ReferenceIdeal.ReadP.val_main_v50 (F := Ideal) (features m c) (edges m c) (weights1 m c) (bias1 m c) (weights2 m c) :=
  ((W6_arr m ρ c 2).trans (SecondProduct.result (V5 m ρ) c)).trans
    ((congrArg₂ SecondProduct.product (entry1_hidden m ρ c) (entry1_weights2 m ρ c)).trans (Cert.StageBridge.secondProduct_eq _ _ _ _ _))
/-- Everything else is as entered; the lists and the weights are also what the reference computes a second time. -/
theorem exit1_source (c : Dev nD) : W6 m ρ c (Proc.devRef .tc main_v3) = Cert.ReferenceIdeal.ReadP.val_main_v54 (F := Ideal) (edges m c) :=
  ((W6_of_ne m ρ c main_v3 (by decide)).trans (entry1_source m ρ c)).trans (Cert.StageBridge.source_again _).symm
theorem exit1_destination (c : Dev nD) : W6 m ρ c (Proc.devRef .tc main_v6) = Cert.ReferenceIdeal.ReadP.val_main_v57 (F := Ideal) (edges m c) :=
  ((W6_of_ne m ρ c main_v6 (by decide)).trans (entry1_destination m ρ c)).trans (Cert.StageBridge.destination_again _).symm
theorem exit1_edgeWeights (c : Dev nD) : W6 m ρ c (Proc.devRef .tc main_v31) = Cert.ReferenceIdeal.ReadP.val_main_v82 (F := Ideal) (edges m c) :=
  ((W6_of_ne m ρ c main_v31 (by decide)).trans (entry1_edgeWeights m ρ c)).trans (Cert.StageBridge.weights_again _).symm
theorem exit1_bias2 (c : Dev nD) : W6 m ρ c (Proc.devRef .tc main_arg5) = bias2 m c :=
  (W6_of_ne m ρ c main_arg5 (by decide)).trans (entry1_bias2 m ρ c)

/-! ## At the return: after the last stretch -/

/-- The result array: the second product's rows gathered at the sources, scaled by the edge weights, added up at the
    destinations, plus the second bias — the reference's result, as a term of the six arguments. -/
theorem result (c : Dev nD) :
    W7 m ρ c (Proc.devRef .tc main_v65) = Cert.ReferenceIdeal.ReadP.val_main_v98 (F := Ideal) (features m c) (edges m c) (weights1 m c) (bias1 m c) (weights2 m c) (bias2 m c) := by
  show StableHlo.after hostOps2 (W6 m ρ c) (Proc.devRef .tc main_v65) = _
  simp only [hostOps2]
  after_results_simp
  rw [exit1_product m ρ c, exit1_source m ρ c, exit1_destination m ρ c, exit1_edgeWeights m ρ c, exit1_bias2 m ρ c]
  rfl

end Cert.KernelIdeal.Walk

end
-- ==== Proof.lean ====
/-
  A two-layer graph convolution: `out = Â · relu(Â · (x W1) + b1) W2 + b2`, where `Â · h` gathers the rows of `h` at
  each edge's source (every node also its own source), scales each by the edge's weight `dis[src] · dis[dst]`,
  `dis = deg^(-1/2)` where the in-degree is positive and zero elsewhere, and adds the scaled rows up at the
  destinations.

  The kernel program computes the two dense products `x W1` and `relu(·) W2` in two pallas_calls, ten blocks of 10000
  rows each, rounding both factors to a narrow format before a matrix product into a zero accumulator, and everything
  else (the edge lists, the degrees, the gathers and the scatter-adds, the biases) on the host; the reference computes
  the products with `dot_general` and the same host operations, the edge lists and weights once per layer.

  Over the extended reals the roundings are the identity and a block's product is the sum over the contracted axis
  of the two blocks' entries, which are the arrays' entries at that block's rows: each call's result array is the
  whole-array product, entry by entry (`FirstProduct`, `SecondProduct`), and these are the reference's two
  `dot_general`s (`StageBridge`). The host operations around them are the reference's own, applied to equal values
  (`Walk`), so the two results are one term of the six arguments. No law of arithmetic beyond re-indexing a finite sum
  is used, so the finiteness of the inputs is never opened.

  The three frames: the two kernel programs' by the launch over their host stretches and regions; the reference's by
  its run with the result dropped. The idealization rewrote nothing, so `preserves` is trivial.
-/
import proofs.«178910_j34445637714074_1_alg».proof.Defs
import proofs.«178910_j34445637714074_1_alg».proof.Proof.Gen.Kernel
import proofs.«178910_j34445637714074_1_alg».proof.Proof.Gen.Kernel.Skeleton
import proofs.«178910_j34445637714074_1_alg».proof.Proof.Gen.Kernel.Launch
import proofs.«178910_j34445637714074_1_alg».proof.Proof.Gen.Kernel.Points
import proofs.«178910_j34445637714074_1_alg».proof.Proof.Gen.Kernel.Frame
import proofs.«178910_j34445637714074_1_alg».proof.Proof.Gen.KernelIdeal
import proofs.«178910_j34445637714074_1_alg».proof.Proof.Gen.KernelIdeal.Skeleton
import proofs.«178910_j34445637714074_1_alg».proof.Proof.Gen.KernelIdeal.Launch
import proofs.«178910_j34445637714074_1_alg».proof.Proof.Gen.KernelIdeal.Points
import proofs.«178910_j34445637714074_1_alg».proof.Proof.Gen.KernelIdeal.Frame
import proofs.«178910_j34445637714074_1_alg».proof.Proof.Gen.ReferenceIdeal
import proofs.«178910_j34445637714074_1_alg».proof.Proof.Gen.Pre_finite_inputs
import proofs.«178910_j34445637714074_1_alg».proof.Proof.RefRunP
import proofs.«178910_j34445637714074_1_alg».proof.Proof.RefReadP
import proofs.«178910_j34445637714074_1_alg».proof.Proof.KernelRun
import proofs.«178910_j34445637714074_1_alg».proof.Proof.Walk
import Idealize.ShloMosaic.Adequacy
import Idealize.ShloMosaic.Init

noncomputable section

namespace Cert.Proof

open Idealize.ShloMosaic Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result array at the reference's last stage of the six arguments: the kernel program
    by its run read back through @main (`Walk.result`), the reference by its own run; the arguments agree. -/
theorem algebraic : Cert.algebraic_KernelIdeal_ReferenceIdeal := by
  intro m ρ m' ρ' _ hagree
  refine ⟨fun c => Cert.ReferenceIdeal.ReadP.val_main_v98 (F := Ideal) (Cert.KernelIdeal.Walk.features m c) (Cert.KernelIdeal.Walk.edges m c) (Cert.KernelIdeal.Walk.weights1 m c)
      (Cert.KernelIdeal.Walk.bias1 m c) (Cert.KernelIdeal.Walk.weights2 m c) (Cert.KernelIdeal.Walk.bias2 m c), ?_, ?_⟩
  · exact (θ_run Cert.KernelIdeal.defs _ _).mono
      (fun _ h c => ⟨(h c).1.trans (Cert.KernelIdeal.Walk.result m ρ c), (h c).2⟩) (Cert.KernelIdeal.Whole.run_main m ρ)
  · refine (θ_run Cert.ReferenceIdeal.defs _ _).mono (fun _ h c => ⟨(h c).1.trans ?_, (h c).2⟩)
      (Cert.ReferenceIdeal.ValueP.run (F := Ideal) m' ρ')
    have e := Cert.ReferenceIdeal.ReadP.val_main_v98_eq (F := Ideal) m' c
    rw [(hagree c).1, (hagree c).2.1, (hagree c).2.2.1, (hagree c).2.2.2.1, (hagree c).2.2.2.2.1, (hagree c).2.2.2.2.2] at e
    exact e

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
